-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S16x8 .f32) (main_arg6 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x8 .f32 := Host.absf main_arg5
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x16 .f32) (main_arg4 : FVec F S16 .f32) (main_arg5 : FVec F S16x8 .f32) (main_arg6 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x16 .f32 := Host.absf main_arg3
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x16 : Shape := ⟨2, ![100000, 16]⟩
abbrev S5000x128 : Shape := ⟨2, ![5000, 128]⟩
abbrev S5000x16 : Shape := ⟨2, ![5000, 16]⟩
abbrev S1700000x16 : Shape := ⟨2, ![1700000, 16]⟩
abbrev S1x16 : Shape := ⟨2, ![1, 16]⟩
abbrev S100000x8 : Shape := ⟨2, ![100000, 8]⟩
abbrev S5000x8 : Shape := ⟨2, ![5000, 8]⟩
abbrev S1700000x8 : Shape := ⟨2, ![1700000, 8]⟩
abbrev S1x8 : Shape := ⟨2, ![1, 8]⟩

abbrev nBuf : Space → Nat
  | .hbm => 86
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x16, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x16, .f32⟩
  | .hbm, ⟨59, _⟩ => ⟨S1700000x1, .f32⟩
  | .hbm, ⟨60, _⟩ => ⟨S1700000x16, .f32⟩
  | .hbm, ⟨61, _⟩ => ⟨S1700000x16, .f32⟩
  | .hbm, ⟨62, _⟩ => ⟨S_, .f32⟩
  | .hbm, ⟨63, _⟩ => ⟨S100000x16, .f32⟩
  | .hbm, ⟨64, _⟩ => ⟨S1700000x1, .i32⟩
  | .hbm, ⟨65, _⟩ => ⟨S100000x16, .f32⟩
  | .hbm, ⟨66, _⟩ => ⟨S1x16, .f32⟩
  | .hbm, ⟨67, _⟩ => ⟨S100000x8, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x8, .f32⟩
  | .hbm, ⟨77, _⟩ => ⟨S1700000x1, .f32⟩
  | .hbm, ⟨78, _⟩ => ⟨S1700000x8, .f32⟩
  | .hbm, ⟨79, _⟩ => ⟨S1700000x8, .f32⟩
  | .hbm, ⟨80, _⟩ => ⟨S_, .f32⟩
  | .hbm, ⟨81, _⟩ => ⟨S100000x8, .f32⟩
  | .hbm, ⟨82, _⟩ => ⟨S1700000x1, .i32⟩
  | .hbm, ⟨83, _⟩ => ⟨S100000x8, .f32⟩
  | .hbm, ⟨84, _⟩ => ⟨S1x8, .f32⟩
  | .hbm, ⟨85, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x8, .f32⟩
  | .local _ .vmem, ⟨9, _⟩ => ⟨S5000x8, .f32⟩
  | .local _ .vmem, ⟨10, _⟩ => ⟨S5000x8, .f32⟩
  | .local _ .vmem, ⟨11, _⟩ => ⟨S5000x8, .f32⟩
  | .local _ .vmem, ⟨12, _⟩ => ⟨S5000x8, .f32⟩
  | .local _ .vmem, ⟨13, _⟩ => ⟨S1x8, .f32⟩
  | .local _ .vmem, ⟨14, _⟩ => ⟨S5000x8, .f32⟩
  | .local _ .vmem, ⟨15, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x8_S16x8_0_0 : ∀ a, (![0, 0] : Fin 2 → Nat) a + S16x8.size a ≤ S16x8.size a
  h_S16x8 : 0 < S16x8.numel
  inb_S5000x8_S5000x8_0_0 : ∀ a, (![0, 0] : Fin 2 → Nat) a + S5000x8.size a ≤ S5000x8.size a
  h_S5000x8 : 0 < S5000x8.numel
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x16_S5000x16_1_0_0_1_n_n_wf : DotDims.WF S5000x128 S128x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S5000x16_S16x8_S5000x8_1_0_0_1_n_n_wf : DotDims.WF S5000x16 S16x8 S5000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x8.size a ≤ S16x8.size a
  hwx1_2 : ∀ i : grid1.Coords, EltTy.bits .f32 = 32 ∨ (Rect.block (s := S16x8) S16x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x8.size a ≤ S100000x8.size a
  hwx1_3 : ∀ i : grid1.Coords, EltTy.bits .f32 = 32 ∨ (Rect.block (s := S100000x8) S5000x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x8.size a ≤ S100000x8.size a
  hwx2_0 : ∀ i : grid2.Coords, EltTy.bits .f32 = 32 ∨ (Rect.block (s := S100000x8) S5000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8.size a ≤ S1x8.size a
  hwx2_1 : ∀ i : grid2.Coords, EltTy.bits .f32 = 32 ∨ (Rect.block (s := S1x8) S1x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x8.size a ≤ S100000x8.size a
  hwx2_2 : ∀ i : grid2.Coords, EltTy.bits .f32 = 32 ∨ (Rect.block (s := S100000x8) S5000x8.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x1600000 : Shape := ⟨2, ![1, 1600000]⟩
abbrev S100000x16 : Shape := ⟨2, ![100000, 16]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x16 : Shape := ⟨2, ![1700000, 16]⟩
abbrev S1x16 : Shape := ⟨2, ![1, 16]⟩
abbrev S100000x8 : Shape := ⟨2, ![100000, 8]⟩
abbrev S1700000x8 : Shape := ⟨2, ![1700000, 8]⟩
abbrev S1x8 : Shape := ⟨2, ![1, 8]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x16, .f32⟩
  | 4 => ⟨S16, .f32⟩
  | 5 => ⟨S16x8, .f32⟩
  | 6 => ⟨S8, .f32⟩
  | 7 => ⟨S1x1600000, .i32⟩
  | 8 => ⟨S1600000, .i32⟩
  | 9 => ⟨S1x1600000, .i32⟩
  | 10 => ⟨S1600000, .i32⟩
  | 11 => ⟨S100000x16, .f32⟩
  | 12 => ⟨S100000, .i32⟩
  | 13 => ⟨S1700000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x16, .f32⟩
  | 59 => ⟨S1700000x1, .f32⟩
  | 60 => ⟨S1700000x16, .f32⟩
  | 61 => ⟨S1700000x16, .f32⟩
  | 62 => ⟨S_, .f32⟩
  | 63 => ⟨S100000x16, .f32⟩
  | 64 => ⟨S1700000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S100000x8, .f32⟩
  | 73 => ⟨S100000, .i32⟩
  | 74 => ⟨S1700000, .i32⟩
  | 75 => ⟨S1700000, .i32⟩
  | 76 => ⟨S_, .f32⟩
  | 77 => ⟨S100000, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x8, .f32⟩
  | 120 => ⟨S1700000x1, .f32⟩
  | 121 => ⟨S1700000x8, .f32⟩
  | 122 => ⟨S1700000x8, .f32⟩
  | 123 => ⟨S_, .f32⟩
  | 124 => ⟨S100000x8, .f32⟩
  | 125 => ⟨S1700000x1, .i32⟩
  | 126 => ⟨S100000x8, .f32⟩
  | 127 => ⟨S1x8, .f32⟩
  | _ => ⟨S100000x128, .f32⟩

abbrev hbmTy0_1 (i : Nat) : BufTy := match i % 128 with
  | 0 => ⟨S100000x8, .f32⟩
  | 1 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x128_S128x16_S100000x16_1_0_0_1_n_n_wf : DotDims.WF S100000x128 S128x16 S100000x16 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x8_S100000x8_1_0_0_1_n_n_wf : DotDims.WF S100000x16 S16x8 S100000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

class Facts : Prop extends Facts₀ where

variable [Facts]
-- ==== Proof.KHost.lean ====
/-
  The graph side of the two-layer convolution, as whole-array functions of the edge list and the edge weights: the edge
  endpoints with one self loop per node appended, the weights with a one per self loop appended, the weighted in-degree,
  its inverse square root where positive and zero elsewhere, the symmetric normalisation of each edge, and the
  aggregation of a node array along the edges: gather the source rows, scale each by its edge's normalisation, add into
  the destination rows. Then what the buffers hold at each boundary between host operations and dense layers.
-/
import proofs.«150596_j17154099380376_1_alg».proof.Proof.Gen.KernelIdeal.Frame
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-! ## The graph functions -/

/-- Row 0 of the edge list (the sources), then the nodes 0 … 99999 (the self loops). -/
def srcs (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- Row 1 of the edge list (the destinations), then the nodes 0 … 99999. -/
def dsts (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- The edge weights, then a one per self loop. -/
def wts (ea : FVec F S1600000 .f32) : FVec F S1700000 .f32 :=
  concatenate S1700000 0 [⟨S1600000, ea⟩,
    ⟨S100000, broadcastInDim S100000 ![] bcast_S_S100000 (constant (F := F) S_ .f32 0x3F800000#32)⟩] concatenates_S1600000_S100000_S1700000_d0

/-- The weighted in-degree: each weight added into its destination's entry of a zero array. -/
def deg (ei : IVec S2x1600000 32) (ea : FVec F S1600000 .f32) : FVec F S100000 .f32 :=
  Host.scatterAdd scatter_S100000_S1700000x1_S1700000_n_0_0_1 (broadcastInDim S100000 ![] bcast_S_S100000 (constant (F := F) S_ .f32 0x00000000#32))
    (broadcastInDim S1700000x1 ![0] bcast_S1700000_S1700000x1_0 (dsts ei)) (wts ea)

/-- The inverse square root of the degree where it is positive, zero elsewhere. -/
def dis (ei : IVec S2x1600000 32) (ea : FVec F S1600000 .f32) : FVec F S100000 .f32 :=
  select (cmpf .ogt (deg ei ea) (broadcastInDim S100000 ![] bcast_S_S100000 (constant (F := F) S_ .f32 0x00000000#32)))
    (Host.rsqrt (deg ei ea))
    (broadcastInDim S100000 ![] bcast_S_S100000 (id (constant (F := F) S_ .f32 0x00000000#32)))

/-- A node index counted from the end when negative. -/
def wrap (ix : IVec S1700000 32) : IVec S1700000 32 :=
  select (cmpi .slt ix (broadcastInDim S1700000 ![] bcast_S_S1700000 (constantI S_ 32 0#32)))
    (addi ix (broadcastInDim S1700000 ![] bcast_S_S1700000 (constantI S_ 32 100000#32))) ix

/-- Each edge's normalisation: the source's inverse root degree times the weight times the destination's. -/
def norm (ei : IVec S2x1600000 32) (ea : FVec F S1600000 .f32) : FVec F S1700000 .f32 :=
  mulf (mulf (Host.gather gather_S100000_S1700000x1_S1700000_n_0_n_n_0_1_1 (dis ei ea) (broadcastInDim S1700000x1 ![0] bcast_S1700000_S1700000x1_0 (wrap (srcs ei)))) (wts ea))
    (Host.gather gather_S100000_S1700000x1_S1700000_n_0_n_n_0_1_1 (dis ei ea) (broadcastInDim S1700000x1 ![0] bcast_S1700000_S1700000x1_0 (wrap (dsts ei))))

/-- The aggregation of a 16-column node array: source rows scaled by the normalisation, added into destination rows. -/
def agg16 (h : FVec F S100000x16 .f32) (ei : IVec S2x1600000 32) (ea : FVec F S1600000 .f32) : FVec F S100000x16 .f32 :=
  Host.scatterAdd scatter_S100000x16_S1700000x1_S1700000x16_1_0_0_1 (broadcastInDim S100000x16 ![] bcast_S_S100000x16 (constant (F := F) S_ .f32 0x00000000#32))
    (broadcastInDim S1700000x1 ![0] bcast_S1700000_S1700000x1_0 (dsts ei))
    (mulf (Host.gather gather_S100000x16_S1700000x1_S1700000x16_1_0_n_n_0_1_116 h (broadcastInDim S1700000x1 ![0] bcast_S1700000_S1700000x1_0 (wrap (srcs ei))))
      (broadcastInDim S1700000x16 ![0, 1] bcast_S1700000x1_S1700000x16_0_1 (broadcastInDim S1700000x1 ![0] bcast_S1700000_S1700000x1_0 (norm ei ea))))

/-- The aggregation of an 8-column node array. -/
def agg8 (h : FVec F S100000x8 .f32) (ei : IVec S2x1600000 32) (ea : FVec F S1600000 .f32) : FVec F S100000x8 .f32 :=
  Host.scatterAdd scatter_S100000x8_S1700000x1_S1700000x8_1_0_0_1 (broadcastInDim S100000x8 ![] bcast_S_S100000x8 (constant (F := F) S_ .f32 0x00000000#32))
    (broadcastInDim S1700000x1 ![0] bcast_S1700000_S1700000x1_0 (dsts ei))
    (mulf (Host.gather gather_S100000x8_S1700000x1_S1700000x8_1_0_n_n_0_1_18 h (broadcastInDim S1700000x1 ![0] bcast_S1700000_S1700000x1_0 (wrap (srcs ei))))
      (broadcastInDim S1700000x8 ![0, 1] bcast_S1700000x1_S1700000x8_0_1 (broadcastInDim S1700000x1 ![0] bcast_S1700000_S1700000x1_0 (norm ei ea))))

/-- A 16-entry bias as a one-row array. -/
def row16 (b : FVec F S16 .f32) : FVec F S1x16 .f32 := fun i => shapeCast S1x16 b shapeCasts_S16_S1x16 i
/-- An 8-entry bias as a one-row array. -/
def row8 (b : FVec F S8 .f32) : FVec F S1x8 .f32 := fun i => shapeCast S1x8 b shapeCasts_S8_S1x8 i

/-! ## The buffers at the boundaries -/

variable (m : (ℓ : Loc nD τ sig) → Buf (Elt F) ℓ) (ρ : Dev nD → PrngReg)

/-- After the first stretch: the endpoint lists, the weights, the degree's comparison and inverse root. -/
theorem W1_v5 (c : Dev nD) : W1 m ρ c (Proc.devRef .tc main_v5) = srcs (m ((c : Thread nD τ).loc main_arg1)) := by
  show StableHlo.after hostOps0 (W0 m ρ c) (Proc.devRef .tc main_v5) = _
  simp only [hostOps0]
  after_results
  rfl
theorem W1_v6 (c : Dev nD) : W1 m ρ c (Proc.devRef .tc main_v6) = dsts (m ((c : Thread nD τ).loc main_arg1)) := by
  show StableHlo.after hostOps0 (W0 m ρ c) (Proc.devRef .tc main_v6) = _
  simp only [hostOps0]
  after_results
  rfl
theorem W1_v8 (c : Dev nD) : W1 m ρ c (Proc.devRef .tc main_v8) = wts (m ((c : Thread nD τ).loc main_arg2)) := by
  show StableHlo.after hostOps0 (W0 m ρ c) (Proc.devRef .tc main_v8) = _
  simp only [hostOps0]
  after_results
  rfl
theorem W1_v11 (c : Dev nD) : W1 m ρ c (Proc.devRef .tc main_v11) = deg (m ((c : Thread nD τ).loc main_arg1)) (m ((c : Thread nD τ).loc main_arg2)) := by
  show StableHlo.after hostOps0 (W0 m ρ c) (Proc.devRef .tc main_v11) = _
  simp only [hostOps0]
  after_results
  rfl
theorem W1_v13 (c : Dev nD) : W1 m ρ c (Proc.devRef .tc main_v13) = cmpf .ogt (deg (m ((c : Thread nD τ).loc main_arg1)) (m ((c : Thread nD τ).loc main_arg2))) (broadcastInDim S100000 ![] bcast_S_S100000 (constant (F := F) S_ .f32 0x00000000#32)) := by
  show StableHlo.after hostOps0 (W0 m ρ c) (Proc.devRef .tc main_v13) = _
  simp only [hostOps0]
  after_results
  rfl
theorem W1_v14 (c : Dev nD) : W1 m ρ c (Proc.devRef .tc main_v14) = Host.rsqrt (deg (m ((c : Thread nD τ).loc main_arg1)) (m ((c : Thread nD τ).loc main_arg2))) := by
  show StableHlo.after hostOps0 (W0 m ρ c) (Proc.devRef .tc main_v14) = _
  simp only [hostOps0]
  after_results
  rfl
theorem W1_cst_2 (c : Dev nD) : W1 m ρ c (Proc.devRef .tc main_cst_2) = constant (F := F) S_ .f32 0x00000000#32 := by
  show StableHlo.after hostOps0 (W0 m ρ c) (Proc.devRef .tc main_cst_2) = _
  simp only [hostOps0]
  after_results

/-- The outlined selection, from any contents holding the degree's comparison and inverse root: the inverse root degree;
    the endpoint lists and the weights pass through. -/
theorem sel_v15 (V : Valuation τ sig (Elt F)) (ei : IVec S2x1600000 32) (ea : FVec F S1600000 .f32)
    (h13 : V (Proc.devRef .tc main_v13) = cmpf .ogt (deg ei ea) (broadcastInDim S100000 ![] bcast_S_S100000 (constant (F := F) S_ .f32 0x00000000#32))) (h14 : V (Proc.devRef .tc main_v14) = Host.rsqrt (deg ei ea)) (hc : V (Proc.devRef .tc main_cst_2) = constant (F := F) S_ .f32 0x00000000#32) :
    StableHlo.after hostOps0_1 V (Proc.devRef .tc main_v15) = dis ei ea := by
  simp only [hostOps0_1]
  after_results_simp
  rw [h13, h14, hc]
  rfl
theorem sel_main_v5 (V : Valuation τ sig (Elt F)) : StableHlo.after hostOps0_1 V (Proc.devRef .tc main_v5) = V (Proc.devRef .tc main_v5) := by
  simp only [hostOps0_1]
  after_results_simp
theorem sel_main_v6 (V : Valuation τ sig (Elt F)) : StableHlo.after hostOps0_1 V (Proc.devRef .tc main_v6) = V (Proc.devRef .tc main_v6) := by
  simp only [hostOps0_1]
  after_results_simp
theorem sel_main_v8 (V : Valuation τ sig (Elt F)) : StableHlo.after hostOps0_1 V (Proc.devRef .tc main_v8) = V (Proc.devRef .tc main_v8) := by
  simp only [hostOps0_1]
  after_results_simp
theorem W2_v15 (c : Dev nD) : W2 m ρ c (Proc.devRef .tc main_v15) = dis (m ((c : Thread nD τ).loc main_arg1)) (m ((c : Thread nD τ).loc main_arg2)) :=
  sel_v15 (W1 m ρ c) _ _ (W1_v13 m ρ c) (W1_v14 m ρ c) (W1_cst_2 m ρ c)
theorem W2_v5 (c : Dev nD) : W2 m ρ c (Proc.devRef .tc main_v5) = srcs (m ((c : Thread nD τ).loc main_arg1)) := (sel_main_v5 (W1 m ρ c)).trans (W1_v5 m ρ c)
theorem W2_v6 (c : Dev nD) : W2 m ρ c (Proc.devRef .tc main_v6) = dsts (m ((c : Thread nD τ).loc main_arg1)) := (sel_main_v6 (W1 m ρ c)).trans (W1_v6 m ρ c)
theorem W2_v8 (c : Dev nD) : W2 m ρ c (Proc.devRef .tc main_v8) = wts (m ((c : Thread nD τ).loc main_arg2)) := (sel_main_v8 (W1 m ρ c)).trans (W1_v8 m ρ c)

/-- The normalisation's stretch, from any contents holding the inverse root degree, the endpoint lists and the weights. -/
theorem nrm_v31 (V : Valuation τ sig (Elt F)) (ei : IVec S2x1600000 32) (ea : FVec F S1600000 .f32)
    (h15 : V (Proc.devRef .tc main_v15) = dis ei ea) (h5 : V (Proc.devRef .tc main_v5) = srcs ei) (h6 : V (Proc.devRef .tc main_v6) = dsts ei) (h8 : V (Proc.devRef .tc main_v8) = wts ea) :
    StableHlo.after hostOps0_2 V (Proc.devRef .tc main_v31) = norm ei ea := by
  simp only [hostOps0_2]
  after_results_simp
  rw [h15, h5, h6, h8]
  rfl
theorem nrm_main_v5 (V : Valuation τ sig (Elt F)) : StableHlo.after hostOps0_2 V (Proc.devRef .tc main_v5) = V (Proc.devRef .tc main_v5) := by
  simp only [hostOps0_2]
  after_results_simp
theorem nrm_main_v6 (V : Valuation τ sig (Elt F)) : StableHlo.after hostOps0_2 V (Proc.devRef .tc main_v6) = V (Proc.devRef .tc main_v6) := by
  simp only [hostOps0_2]
  after_results_simp

/-- At the first dense layer's entry: the endpoint lists, the normalisation, and the arguments as launched. -/
theorem W3_v31 (c : Dev nD) : W3 m ρ c (Proc.devRef .tc main_v31) = norm (m ((c : Thread nD τ).loc main_arg1)) (m ((c : Thread nD τ).loc main_arg2)) :=
  nrm_v31 (W2 m ρ c) _ _ (W2_v15 m ρ c) (W2_v5 m ρ c) (W2_v6 m ρ c) (W2_v8 m ρ c)
theorem W3_v5 (c : Dev nD) : W3 m ρ c (Proc.devRef .tc main_v5) = srcs (m ((c : Thread nD τ).loc main_arg1)) := (nrm_main_v5 (W2 m ρ c)).trans (W2_v5 m ρ c)
theorem W3_v6 (c : Dev nD) : W3 m ρ c (Proc.devRef .tc main_v6) = dsts (m ((c : Thread nD τ).loc main_arg1)) := (nrm_main_v6 (W2 m ρ c)).trans (W2_v6 m ρ c)
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results_simp
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results_simp
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results_simp
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  simp only [hostOps0, hostOps0_1, hostOps0_2]
  after_results_simp

/-- Across the first dense layer everything but its three arrays is carried. -/
theorem W4_v5 (c : Dev nD) : W4 m ρ c (Proc.devRef .tc main_v5) = srcs (m ((c : Thread nD τ).loc main_arg1)) :=
  (W4_of_ne m ρ c main_v5 (by decide)).trans (W3_v5 m ρ c)
theorem W4_v6 (c : Dev nD) : W4 m ρ c (Proc.devRef .tc main_v6) = dsts (m ((c : Thread nD τ).loc main_arg1)) :=
  (W4_of_ne m ρ c main_v6 (by decide)).trans (W3_v6 m ρ c)
theorem W4_v31 (c : Dev nD) : W4 m ρ c (Proc.devRef .tc main_v31) = norm (m ((c : Thread nD τ).loc main_arg1)) (m ((c : Thread nD τ).loc main_arg2)) :=
  (W4_of_ne m ρ c main_v31 (by decide)).trans (W3_v31 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)

/-- At the second dense layer's entry: the aggregation of whatever the first layer left, and the bias as a row. -/
theorem W5_v45 (c : Dev nD) : W5 m ρ c (Proc.devRef .tc main_v45) = agg16 (W4 m ρ c (Proc.devRef .tc main_v32)) (m ((c : Thread nD τ).loc main_arg1)) (m ((c : Thread nD τ).loc main_arg2)) := by
  show StableHlo.after hostOps1 (W4 m ρ c) (Proc.devRef .tc main_v45) = _
  simp only [hostOps1]
  after_results_simp
  rw [W4_v5 m ρ c, W4_v6 m ρ c, W4_v31 m ρ c]
  rfl
theorem W5_v46 (c : Dev nD) : W5 m ρ c (Proc.devRef .tc main_v46) = row16 (m ((c : Thread nD τ).loc main_arg4)) := by
  show StableHlo.after hostOps1 (W4 m ρ c) (Proc.devRef .tc main_v46) = _
  simp only [hostOps1]
  after_results_simp
  rw [W4_arg4 m ρ c]
  rfl
theorem W5_v5 (c : Dev nD) : W5 m ρ c (Proc.devRef .tc main_v5) = srcs (m ((c : Thread nD τ).loc main_arg1)) := by
  show StableHlo.after hostOps1 (W4 m ρ c) (Proc.devRef .tc main_v5) = _
  simp only [hostOps1]
  after_results_simp
  exact W4_v5 m ρ c
theorem W5_v6 (c : Dev nD) : W5 m ρ c (Proc.devRef .tc main_v6) = dsts (m ((c : Thread nD τ).loc main_arg1)) := by
  show StableHlo.after hostOps1 (W4 m ρ c) (Proc.devRef .tc main_v6) = _
  simp only [hostOps1]
  after_results_simp
  exact W4_v6 m ρ c
theorem W5_v31 (c : Dev nD) : W5 m ρ c (Proc.devRef .tc main_v31) = norm (m ((c : Thread nD τ).loc main_arg1)) (m ((c : Thread nD τ).loc main_arg2)) := by
  show StableHlo.after hostOps1 (W4 m ρ c) (Proc.devRef .tc main_v31) = _
  simp only [hostOps1]
  after_results_simp
  exact W4_v31 m ρ c
theorem W5_arg5 (c : Dev nD) : W5 m ρ c (Proc.devRef .tc main_arg5) = m ((c : Thread nD τ).loc main_arg5) := by
  show StableHlo.after hostOps1 (W4 m ρ c) (Proc.devRef .tc main_arg5) = _
  simp only [hostOps1]
  after_results_simp
  exact W4_arg5 m ρ c
theorem W5_arg6 (c : Dev nD) : W5 m ρ c (Proc.devRef .tc main_arg6) = m ((c : Thread nD τ).loc main_arg6) := by
  show StableHlo.after hostOps1 (W4 m ρ c) (Proc.devRef .tc main_arg6) = _
  simp only [hostOps1]
  after_results_simp
  exact W4_arg6 m ρ c

/-- Across the second dense layer everything but its four arrays is carried. -/
theorem W6_v5 (c : Dev nD) : W6 m ρ c (Proc.devRef .tc main_v5) = srcs (m ((c : Thread nD τ).loc main_arg1)) :=
  (W6_of_ne m ρ c main_v5 (by decide)).trans (W5_v5 m ρ c)
theorem W6_v6 (c : Dev nD) : W6 m ρ c (Proc.devRef .tc main_v6) = dsts (m ((c : Thread nD τ).loc main_arg1)) :=
  (W6_of_ne m ρ c main_v6 (by decide)).trans (W5_v6 m ρ c)
theorem W6_v31 (c : Dev nD) : W6 m ρ c (Proc.devRef .tc main_v31) = norm (m ((c : Thread nD τ).loc main_arg1)) (m ((c : Thread nD τ).loc main_arg2)) :=
  (W6_of_ne m ρ c main_v31 (by decide)).trans (W5_v31 m ρ c)
theorem W6_arg6 (c : Dev nD) : W6 m ρ c (Proc.devRef .tc main_arg6) = m ((c : Thread nD τ).loc main_arg6) :=
  (W6_of_ne m ρ c main_arg6 (by decide)).trans (W5_arg6 m ρ c)

/-- At the last step's entry: the aggregation of whatever the second layer left, and the bias as a row. -/
theorem W7_v60 (c : Dev nD) : W7 m ρ c (Proc.devRef .tc main_v60) = agg8 (W6 m ρ c (Proc.devRef .tc main_v47)) (m ((c : Thread nD τ).loc main_arg1)) (m ((c : Thread nD τ).loc main_arg2)) := by
  show StableHlo.after hostOps2 (W6 m ρ c) (Proc.devRef .tc main_v60) = _
  simp only [hostOps2]
  after_results_simp
  rw [W6_v5 m ρ c, W6_v6 m ρ c, W6_v31 m ρ c]
  rfl
theorem W7_v61 (c : Dev nD) : W7 m ρ c (Proc.devRef .tc main_v61) = row8 (m ((c : Thread nD τ).loc main_arg6)) := by
  show StableHlo.after hostOps2 (W6 m ρ c) (Proc.devRef .tc main_v61) = _
  simp only [hostOps2]
  after_results_simp
  rw [W6_arg6 m ρ c]
  rfl

end Cert.KernelIdeal.Host

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.Spec.lean ====
/-
  The dense pieces of a two-layer graph convolution, as whole-array functions over the extended reals, index by index.
  `mm` is the product of an M×K array with a K×N array: entry (r, q) is the sum over k of x (r, k) · w (k, q).
  `addRow` adds a one-row array to every row of an M×N array; `reluAddRow` does the same and then takes the maximum
  with a given scalar (zero, for the rectifier).
-/
import Idealize.ShloMosaic.PureOps.Ideal.Laws
import Idealize.ShloMosaic.Lib.ValueIdx

noncomputable section

open scoped BigOperators

namespace Gcn

open Idealize.ShloMosaic Idealize.ShloMosaic.ValueIdx

/-- An a×b array of extended reals. -/
abbrev Mat (a b : Nat) : Type := (⟨2, ![a, b]⟩ : Shape).Idx → EReal

/-- The row coordinate of an index of an a×b array, as a number below a. -/
abbrev row {a b : Nat} (i : (⟨2, ![a, b]⟩ : Shape).Idx) : Fin a := ⟨(i 0).val, (i 0).isLt⟩
/-- The column coordinate, as a number below b. -/
abbrev col {a b : Nat} (i : (⟨2, ![a, b]⟩ : Shape).Idx) : Fin b := ⟨(i 1).val, (i 1).isLt⟩

/-- The matrix product. -/
def mm (M K N : Nat) (x : Mat M K) (w : Mat K N) : Mat M N :=
  fun i => ∑ k : Fin K, x (ix2 (n0 := M) (n1 := K) (row i) k) * w (ix2 (n0 := K) (n1 := N) k (col i))

/-- Every row of `a` plus the one row `b`. -/
def addRow (M N : Nat) (a : Mat M N) (b : Mat 1 N) : Mat M N :=
  fun i => a i + b (ix2 (n0 := 1) (n1 := N) 0 (col i))

/-- Every row of `a` plus the one row `b`, then the maximum with `z`. -/
def reluAddRow (M N : Nat) (z : EReal) (a : Mat M N) (b : Mat 1 N) : Mat M N :=
  fun i => max (a i + b (ix2 (n0 := 1) (n1 := N) 0 (col i))) z

end Gcn

end
-- ==== Proof.Region0.lean ====
/-
  The first dense layer. Each of the twenty grid points multiplies a block of 5000 rows of the feature array by the whole
  128×16 weight array and writes the 5000×16 product back as the same rows of the result; the row blocks tile the
  100000 rows, so the result array ends holding the matrix product of the two arrays, entry by entry the sum over the
  128 contracted coordinates.
-/
import proofs.«150596_j17154099380376_1_alg».proof.Proof.Gen.KernelIdeal.Frame
import proofs.«150596_j17154099380376_1_alg».proof.Proof.LibPlainDot
import proofs.«150596_j17154099380376_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at an index: the product into the zero accumulator is the plain sum over the contracted
    coordinate (the rounding of both operands to a narrower format is the identity on extended reals). -/
theorem pay_apply (v0 : Vec Ideal S5000x128 .f32) (v2 : Vec Ideal S128x16 .f32) (j : S5000x16.Idx) :
    k0_pay1 v0 v2 j = ∑ k : Fin 128, v0 (ix2 (n0 := 5000) (n1 := 128) (Gcn.row j) k) * v2 (ix2 (n0 := 128) (n1 := 16) k (Gcn.col j)) := by
  unfold k0_pay1
  exact PlainDot.matmul_zero_apply 5000 128 16 (truncf .bf16 v0 bitsLt_bf16_f32) (truncf .bf16 v2 bitsLt_bf16_f32) j

/-- The block indices over the grid: the feature window and the result window sit at row block `t`, column block 0; the
    weight window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows 5000 t … 5000 t + 4999 of the feature array. -/
theorem xblk_apply (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The weight window's block at every point is the whole weight array. -/
theorem wblk_apply (c : Dev nD) (t : Fin cfg0.N) (y : S128x16.Idx) (i : S128x16.Idx)
    (h0 : (i 0).val = (y 0).val) (h1 : (i 1).val = (y 1).val) :
    (iblk0 V c 1 t : Vec Ideal S128x16 .f32) y = (V c main_arg3 : S128x16.Idx → EReal) i := by
  obtain ⟨-, -, e2, e3, -⟩ := idx_facts t
  unfold iblk0
  rw [View.read_apply]
  show V c main_arg3 _ = V c main_arg3 _
  congr 1
  funext a
  apply Fin.ext
  match a with
  | ⟨0, _⟩ => show win0_1.index t 0 * 128 + 1 * (y 0).val = (i 0).val; rw [e2, h0]; omega
  | ⟨1, _⟩ => show win0_1.index t 1 * 16 + 1 * (y 1).val = (i 1).val; rw [e3, h1]; omega

/-- What point `t` writes back is block `t` of the product of the two arrays as the region finds them. -/
theorem flushed_eq (c : Dev nD) (t : Fin cfg0.N) :
    (dat0 V c).flushed 2 t = ((cfg0.win 2).blk t).view.read (Elt Ideal) (Gcn.mm 100000 128 16 (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x16) hz]
  funext j
  obtain ⟨-, -, -, -, e4, e5⟩ := idx_facts t
  rw [View.read_apply]
  show k0_pay1 (iblk0 V c 0 t) (iblk0 V c 1 t) ((win0 2).xinj (grid0.coords t) j) = _
  refine (pay_apply (iblk0 V c 0 t) (iblk0 V c 1 t) ((win0 2).xinj (grid0.coords t) j)).trans ?_
  unfold Gcn.mm
  refine Finset.sum_congr rfl fun k _ => ?_
  have hj0 : (j 0).val < 5000 := (j 0).isLt
  have hj1 : (j 1).val < 16 := (j 1).isLt
  have he0 : ((((cfg0.win 2).blk t).view.emb j) 0).val = win0_2.index t 0 * 5000 + 1 * (j 0).val := rfl
  have he1 : ((((cfg0.win 2).blk t).view.emb j) 1).val = win0_2.index t 1 * 16 + 1 * (j 1).val := rfl
  refine congrArg₂ (· * ·) (xblk_apply V c t _ _ ?_ ?_) (wblk_apply V c t _ _ ?_ ?_)
  · show win0_2.index t 0 * 5000 + 1 * (j 0).val = 5000 * t.val + (j 0).val; rw [e4]; omega
  · rfl
  · rfl
  · show win0_2.index t 1 * 16 + 1 * (j 1).val = (j 1).val; rw [e5]; omega

/-- An index of the result array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v32).slice (win0_2.rect t)).set ↔ _
  rw [View.set_slice_whole, Rect.mem_set_unit]
  exact Iff.rfl

/-- The result array after the region: the matrix product of the feature array and the weight array. Row r is written
    by point r / 5000. -/
theorem final (c : Dev nD) : (dat0 V c).arrAt 2 cfg0.N = Gcn.mm 100000 128 16 (V c main_arg0) (V c main_arg3) :=
  (dat0 V c).arrAt_eq_of_cover 2 _ (fun t _ => flushed_eq V c t) fun i => by
    have hi0 : (i 0).val < 100000 := (i 0).isLt
    have hi1 : (i 1).val < 16 := (i 1).isLt
    have hN : cfg0.N = 20 := N_0
    have hlt : (i 0).val / 5000 < cfg0.N := by rw [hN]; omega
    obtain ⟨-, -, -, -, e4, e5⟩ := idx_facts ⟨(i 0).val / 5000, hlt⟩
    refine ⟨⟨(i 0).val / 5000, hlt⟩, flush0_2 _, ?_⟩
    rw [mem_blk]
    intro a
    match a with
    | ⟨0, _⟩ =>
      show win0_2.index ⟨(i 0).val / 5000, hlt⟩ 0 * 5000 ≤ (i 0).val ∧ (i 0).val < win0_2.index ⟨(i 0).val / 5000, hlt⟩ 0 * 5000 + 5000
      rw [e4]; show (i 0).val / 5000 * 5000 ≤ (i 0).val ∧ (i 0).val < (i 0).val / 5000 * 5000 + 5000; omega
    | ⟨1, _⟩ =>
      show win0_2.index ⟨(i 0).val / 5000, hlt⟩ 1 * 16 ≤ (i 1).val ∧ (i 1).val < win0_2.index ⟨(i 0).val / 5000, hlt⟩ 1 * 16 + 16
      rw [e5]; omega

end Cert.KernelIdeal.Region0

end
-- ==== Proof.Region1.lean ====
/-
  The second dense layer. Each grid point takes a block of 5000 rows of the aggregated array, adds the one-row bias to
  every row, takes the maximum with zero, multiplies by the whole 16×8 weight array and writes the 5000×8 product back
  as the same rows of the result. The row blocks tile the 100000 rows, so the result array ends holding the product of
  the rectified biased array with the weights.
-/
import proofs.«150596_j17154099380376_1_alg».proof.Proof.Gen.KernelIdeal.Frame
import proofs.«150596_j17154099380376_1_alg».proof.Proof.LibPlainDot
import proofs.«150596_j17154099380376_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The zero the rectifier compares with. -/
abbrev zero : EReal := FloatOps.ofBits (F := Ideal) .f32 0x00000000#32

/-- The biased, rectified block at an index. -/
theorem act_apply (v0 : Vec Ideal S5000x16 .f32) (v2 : Vec Ideal S1x16 .f32) (y : S5000x16.Idx) :
    (maximumf (addf (shapeCast S5000x16 v0 shapeCasts_S5000x16_S5000x16)
        (broadcastTo S5000x16 (shapeCast S1x16 v2 shapeCasts_S1x16_S1x16) broadcasts_S1x16_S5000x16))
      (broadcast S5000x16 (Scalar.ofBits .f32 0x00000000#32)) : FVec Ideal S5000x16 .f32) y
      = max (v0 y + v2 (ix2 (n0 := 1) (n1 := 16) 0 (Gcn.col y))) zero := by
  rw [maximumf_apply, addf_apply, shapeCast_self, shapeCast_self]
  rw [broadcastTo_apply v2 broadcasts_S1x16_S5000x16 y (ix2 (n0 := 1) (n1 := 16) 0 (Gcn.col y)) (fun a => by
    match a with
    | ⟨0, _⟩ => rfl
    | ⟨1, _⟩ => rfl)]
  rfl

/-- The body's one stored value at an index: the sum over the 16 contracted coordinates of the rectified biased entry
    times the weight. -/
theorem pay_apply (v0 : Vec Ideal S5000x16 .f32) (v2 : Vec Ideal S1x16 .f32) (v9 : Vec Ideal S16x8 .f32) (j : S5000x8.Idx) :
    k1_pay1 v0 v2 v9 j = ∑ k : Fin 16, max (v0 (ix2 (n0 := 5000) (n1 := 16) (Gcn.row j) k) + v2 (ix2 (n0 := 1) (n1 := 16) 0 k)) zero
      * v9 (ix2 (n0 := 16) (n1 := 8) k (Gcn.col j)) := by
  unfold k1_pay1
  refine (PlainDot.matmul_zero_apply 5000 16 8 (truncf .bf16 _ bitsLt_bf16_f32) (truncf .bf16 v9 bitsLt_bf16_f32) j).trans ?_
  refine Finset.sum_congr rfl fun k _ => ?_
  rw [truncf_apply, truncf_apply]
  exact congrArg (· * _) (act_apply v0 v2 _)

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregated window's block at point `t` is rows 5000 t … 5000 t + 4999 of the aggregated array. -/
theorem ablk_apply (c : Dev nD) (t : Fin cfg1.N) (y : S5000x16.Idx) (i : S100000x16.Idx)
    (h0 : (i 0).val = 5000 * t.val + (y 0).val) (h1 : (i 1).val = (y 1).val) :
    (iblk1 V c 0 t : Vec Ideal S5000x16 .f32) y = (V c main_v45 : S100000x16.Idx → EReal) i := by
  obtain ⟨e0, e1, -⟩ := idx_facts t
  unfold iblk1
  rw [View.read_apply]
  show V c main_v45 _ = V c main_v45 _
  congr 1
  funext a
  apply Fin.ext
  match a with
  | ⟨0, _⟩ => show win1_0.index t 0 * 5000 + 1 * (y 0).val = (i 0).val; rw [e0, h0]; omega
  | ⟨1, _⟩ => show win1_0.index t 1 * 16 + 1 * (y 1).val = (i 1).val; rw [e1, h1]; omega

/-- The bias window's block at every point is the whole one-row bias array. -/
theorem bblk_apply (c : Dev nD) (t : Fin cfg1.N) (y : S1x16.Idx) (i : S1x16.Idx)
    (h0 : (i 0).val = (y 0).val) (h1 : (i 1).val = (y 1).val) :
    (iblk1 V c 1 t : Vec Ideal S1x16 .f32) y = (V c main_v46 : S1x16.Idx → EReal) i := by
  obtain ⟨-, -, e2, e3, -⟩ := idx_facts t
  unfold iblk1
  rw [View.read_apply]
  show V c main_v46 _ = V c main_v46 _
  congr 1
  funext a
  apply Fin.ext
  match a with
  | ⟨0, _⟩ => show win1_1.index t 0 * 1 + 1 * (y 0).val = (i 0).val; rw [e2, h0]; omega
  | ⟨1, _⟩ => show win1_1.index t 1 * 16 + 1 * (y 1).val = (i 1).val; rw [e3, h1]; omega

/-- The weight window's block at every point is the whole weight array. -/
theorem wblk_apply (c : Dev nD) (t : Fin cfg1.N) (y : S16x8.Idx) (i : S16x8.Idx)
    (h0 : (i 0).val = (y 0).val) (h1 : (i 1).val = (y 1).val) :
    (iblk1 V c 2 t : Vec Ideal S16x8 .f32) y = (V c main_arg5 : S16x8.Idx → EReal) i := by
  obtain ⟨-, -, -, -, e4, e5, -⟩ := idx_facts t
  unfold iblk1
  rw [View.read_apply]
  show V c main_arg5 _ = V c main_arg5 _
  congr 1
  funext a
  apply Fin.ext
  match a with
  | ⟨0, _⟩ => show win1_2.index t 0 * 16 + 1 * (y 0).val = (i 0).val; rw [e4, h0]; omega
  | ⟨1, _⟩ => show win1_2.index t 1 * 8 + 1 * (y 1).val = (i 1).val; rw [e5, h1]; omega

/-- What point `t` writes back is block `t` of the product of the rectified biased array with the weights. -/
theorem flushed_eq (c : Dev nD) (t : Fin cfg1.N) :
    (dat1 V c).flushed 3 t = ((cfg1.win 3).blk t).view.read (Elt Ideal)
      (Gcn.mm 100000 16 8 (Gcn.reluAddRow 100000 16 zero (V c main_v45) (V c main_v46)) (V c main_arg5)) := by
  show (cfg1.win 3).cut (grid1.coords t) ((dat1 V c).after 3 t) = _
  rw [after1_3]
  unfold out1_3
  rw [View.canon_unit_zero hz]
  simp only [View.ld_unit_zero (S := S5000x16) hz, View.ld_unit_zero (S := S1x16) hz, View.ld_unit_zero (S := S16x8) hz]
  funext j
  obtain ⟨-, -, -, -, -, -, e6, e7⟩ := idx_facts t
  rw [View.read_apply]
  show k1_pay1 (iblk1 V c 0 t) (iblk1 V c 1 t) (iblk1 V c 2 t) ((win1 3).xinj (grid1.coords t) j) = _
  refine (pay_apply (iblk1 V c 0 t) (iblk1 V c 1 t) (iblk1 V c 2 t) ((win1 3).xinj (grid1.coords t) j)).trans ?_
  unfold Gcn.mm Gcn.reluAddRow
  refine Finset.sum_congr rfl fun k _ => ?_
  have hj0 : (j 0).val < 5000 := (j 0).isLt
  have hj1 : (j 1).val < 8 := (j 1).isLt
  refine congrArg₂ (· * ·) (congrArg₂ (fun a b => max (a + b) zero) (ablk_apply V c t _ _ ?_ ?_) (bblk_apply V c t _ _ ?_ ?_)) (wblk_apply V c t _ _ ?_ ?_)
  · show win1_3.index t 0 * 5000 + 1 * (j 0).val = 5000 * t.val + (j 0).val; rw [e6]; omega
  · rfl
  · rfl
  · rfl
  · rfl
  · show win1_3.index t 1 * 8 + 1 * (j 1).val = (j 1).val; rw [e7]; omega

/-- An index of the result array is in point `t`'s block iff each coordinate is in the block's range on its axis. -/
theorem mem_blk (t : Fin cfg1.N) (i : S100000x8.Idx) :
    i ∈ ((cfg1.win 3).blk t).view.set ↔ ∀ a : Fin 2, win1_3.index t a * S5000x8.size a ≤ (i a).val ∧ (i a).val < win1_3.index t a * S5000x8.size a + S5000x8.size a := by
  show i ∈ ((View.whole main_v47).slice (win1_3.rect t)).set ↔ _
  rw [View.set_slice_whole, Rect.mem_set_unit]
  exact Iff.rfl

/-- The result array after the region. Row r is written by point r / 5000. -/
theorem final (c : Dev nD) : (dat1 V c).arrAt 3 cfg1.N
    = Gcn.mm 100000 16 8 (Gcn.reluAddRow 100000 16 zero (V c main_v45) (V c main_v46)) (V c main_arg5) :=
  (dat1 V c).arrAt_eq_of_cover 3 _ (fun t _ => flushed_eq V c t) fun i => by
    have hi0 : (i 0).val < 100000 := (i 0).isLt
    have hi1 : (i 1).val < 8 := (i 1).isLt
    have hN : cfg1.N = 20 := N_1
    have hlt : (i 0).val / 5000 < cfg1.N := by rw [hN]; omega
    obtain ⟨-, -, -, -, -, -, e6, e7⟩ := idx_facts ⟨(i 0).val / 5000, hlt⟩
    refine ⟨⟨(i 0).val / 5000, hlt⟩, flush1_3 _, ?_⟩
    rw [mem_blk]
    intro a
    match a with
    | ⟨0, _⟩ =>
      show win1_3.index ⟨(i 0).val / 5000, hlt⟩ 0 * 5000 ≤ (i 0).val ∧ (i 0).val < win1_3.index ⟨(i 0).val / 5000, hlt⟩ 0 * 5000 + 5000
      rw [e6]; show (i 0).val / 5000 * 5000 ≤ (i 0).val ∧ (i 0).val < (i 0).val / 5000 * 5000 + 5000; omega
    | ⟨1, _⟩ =>
      show win1_3.index ⟨(i 0).val / 5000, hlt⟩ 1 * 8 ≤ (i 1).val ∧ (i 1).val < win1_3.index ⟨(i 0).val / 5000, hlt⟩ 1 * 8 + 8
      rw [e7]; omega

end Cert.KernelIdeal.Region1

end
-- ==== Proof.Region2.lean ====
/-
  The last step. Each grid point takes a block of 5000 rows of the second aggregated array, adds the one-row bias to
  every row and writes the block back as the same rows of the result; the row blocks tile the 100000 rows, so the result
  array ends holding the aggregated array plus the bias row.
-/
import proofs.«150596_j17154099380376_1_alg».proof.Proof.Gen.KernelIdeal.Frame
import proofs.«150596_j17154099380376_1_alg».proof.Proof.LibPlainDot
import proofs.«150596_j17154099380376_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at an index: the entry plus the bias of its column. -/
theorem pay_apply (v0 : Vec Ideal S5000x8 .f32) (v2 : Vec Ideal S1x8 .f32) (j : S5000x8.Idx) :
    k2_pay1 v0 v2 j = v0 j + v2 (ix2 (n0 := 1) (n1 := 8) 0 (Gcn.col j)) := by
  unfold k2_pay1
  rw [addf_apply, shapeCast_self, shapeCast_self]
  rw [broadcastTo_apply v2 broadcasts_S1x8_S5000x8 j (ix2 (n0 := 1) (n1 := 8) 0 (Gcn.col j)) (fun a => by
    match a with
    | ⟨0, _⟩ => rfl
    | ⟨1, _⟩ => rfl)]

theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The aggregated window's block at point `t` is rows 5000 t … 5000 t + 4999 of the aggregated array. -/
theorem ablk_apply (c : Dev nD) (t : Fin cfg2.N) (y : S5000x8.Idx) (i : S100000x8.Idx)
    (h0 : (i 0).val = 5000 * t.val + (y 0).val) (h1 : (i 1).val = (y 1).val) :
    (iblk2 V c 0 t : Vec Ideal S5000x8 .f32) y = (V c main_v60 : S100000x8.Idx → EReal) i := by
  obtain ⟨e0, e1, -⟩ := idx_facts t
  unfold iblk2
  rw [View.read_apply]
  show V c main_v60 _ = V c main_v60 _
  congr 1
  funext a
  apply Fin.ext
  match a with
  | ⟨0, _⟩ => show win2_0.index t 0 * 5000 + 1 * (y 0).val = (i 0).val; rw [e0, h0]; omega
  | ⟨1, _⟩ => show win2_0.index t 1 * 8 + 1 * (y 1).val = (i 1).val; rw [e1, h1]; omega

/-- The bias window's block at every point is the whole one-row bias array. -/
theorem bblk_apply (c : Dev nD) (t : Fin cfg2.N) (y : S1x8.Idx) (i : S1x8.Idx)
    (h0 : (i 0).val = (y 0).val) (h1 : (i 1).val = (y 1).val) :
    (iblk2 V c 1 t : Vec Ideal S1x8 .f32) y = (V c main_v61 : S1x8.Idx → EReal) i := by
  obtain ⟨-, -, e2, e3, -⟩ := idx_facts t
  unfold iblk2
  rw [View.read_apply]
  show V c main_v61 _ = V c main_v61 _
  congr 1
  funext a
  apply Fin.ext
  match a with
  | ⟨0, _⟩ => show win2_1.index t 0 * 1 + 1 * (y 0).val = (i 0).val; rw [e2, h0]; omega
  | ⟨1, _⟩ => show win2_1.index t 1 * 8 + 1 * (y 1).val = (i 1).val; rw [e3, h1]; omega

/-- What point `t` writes back is block `t` of the aggregated array plus the bias row. -/
theorem flushed_eq (c : Dev nD) (t : Fin cfg2.N) :
    (dat2 V c).flushed 2 t = ((cfg2.win 2).blk t).view.read (Elt Ideal) (Gcn.addRow 100000 8 (V c main_v60) (V c main_v61)) := by
  show (cfg2.win 2).cut (grid2.coords t) ((dat2 V c).after 2 t) = _
  rw [after2_2]
  unfold out2_2
  rw [View.canon_unit_zero hz]
  simp only [View.ld_unit_zero (S := S5000x8) hz, View.ld_unit_zero (S := S1x8) hz]
  funext j
  obtain ⟨-, -, -, -, e4, e5⟩ := idx_facts t
  rw [View.read_apply]
  show k2_pay1 (iblk2 V c 0 t) (iblk2 V c 1 t) ((win2 2).xinj (grid2.coords t) j) = _
  refine (pay_apply (iblk2 V c 0 t) (iblk2 V c 1 t) ((win2 2).xinj (grid2.coords t) j)).trans ?_
  unfold Gcn.addRow
  have hj0 : (j 0).val < 5000 := (j 0).isLt
  have hj1 : (j 1).val < 8 := (j 1).isLt
  refine congrArg₂ (· + ·) (ablk_apply V c t _ _ ?_ ?_) (bblk_apply V c t _ _ ?_ ?_)
  · show win2_2.index t 0 * 5000 + 1 * (j 0).val = 5000 * t.val + (j 0).val; rw [e4]; omega
  · show win2_2.index t 1 * 8 + 1 * (j 1).val = (j 1).val; rw [e5]; omega
  · rfl
  · show win2_2.index t 1 * 8 + 1 * (j 1).val = (j 1).val; rw [e5]; omega

/-- An index of the result array is in point `t`'s block iff each coordinate is in the block's range on its axis. -/
theorem mem_blk (t : Fin cfg2.N) (i : S100000x8.Idx) :
    i ∈ ((cfg2.win 2).blk t).view.set ↔ ∀ a : Fin 2, win2_2.index t a * S5000x8.size a ≤ (i a).val ∧ (i a).val < win2_2.index t a * S5000x8.size a + S5000x8.size a := by
  show i ∈ ((View.whole main_v62).slice (win2_2.rect t)).set ↔ _
  rw [View.set_slice_whole, Rect.mem_set_unit]
  exact Iff.rfl

/-- The result array after the region. Row r is written by point r / 5000. -/
theorem final (c : Dev nD) : (dat2 V c).arrAt 2 cfg2.N = Gcn.addRow 100000 8 (V c main_v60) (V c main_v61) :=
  (dat2 V c).arrAt_eq_of_cover 2 _ (fun t _ => flushed_eq V c t) fun i => by
    have hi0 : (i 0).val < 100000 := (i 0).isLt
    have hi1 : (i 1).val < 8 := (i 1).isLt
    have hN : cfg2.N = 20 := N_2
    have hlt : (i 0).val / 5000 < cfg2.N := by rw [hN]; omega
    obtain ⟨-, -, -, -, e4, e5⟩ := idx_facts ⟨(i 0).val / 5000, hlt⟩
    refine ⟨⟨(i 0).val / 5000, hlt⟩, flush2_2 _, ?_⟩
    rw [mem_blk]
    intro a
    match a with
    | ⟨0, _⟩ =>
      show win2_2.index ⟨(i 0).val / 5000, hlt⟩ 0 * 5000 ≤ (i 0).val ∧ (i 0).val < win2_2.index ⟨(i 0).val / 5000, hlt⟩ 0 * 5000 + 5000
      rw [e4]; show (i 0).val / 5000 * 5000 ≤ (i 0).val ∧ (i 0).val < (i 0).val / 5000 * 5000 + 5000; omega
    | ⟨1, _⟩ =>
      show win2_2.index ⟨(i 0).val / 5000, hlt⟩ 1 * 8 ≤ (i 1).val ∧ (i 1).val < win2_2.index ⟨(i 0).val / 5000, hlt⟩ 1 * 8 + 8
      rw [e5]; omega

end Cert.KernelIdeal.Region2

end
-- ==== Proof.Out.lean ====
/-
  The two-layer graph convolution as one function of the seven arguments: aggregate (features · W1) along the edges,
  add the first bias and rectify, aggregate (that · W2), add the second bias.
-/
import proofs.«150596_j17154099380376_1_alg».proof.Proof.KHost
import proofs.«150596_j17154099380376_1_alg».proof.Proof.Spec

noncomputable section

namespace Cert.KernelIdeal.Result

open Cert.KernelIdeal Idealize.ShloMosaic

/-- The zero the rectifier compares with. -/
abbrev zero : EReal := FloatOps.ofBits (F := Ideal) .f32 0x00000000#32

/-- The whole function. -/
def out (x : Gcn.Mat 100000 128) (ei : IVec S2x1600000 32) (ea : FVec Ideal S1600000 .f32) (w1 : Gcn.Mat 128 16)
    (b1 : FVec Ideal S16 .f32) (w2 : Gcn.Mat 16 8) (b2 : FVec Ideal S8 .f32) : Gcn.Mat 100000 8 :=
  Gcn.addRow 100000 8
    (Host.agg8 (Gcn.mm 100000 16 8
      (Gcn.reluAddRow 100000 16 zero (Host.agg16 (Gcn.mm 100000 128 16 x w1) ei ea) (Host.row16 b1)) w2) ei ea)
    (Host.row8 b2)

end Cert.KernelIdeal.Result

end
-- ==== Proof.KValue.lean ====
/-
  The kernel program's result as one function of its arguments. The first dense layer leaves the product of the features
  with the first weights; the host aggregates it along the edges; the second dense layer adds the first bias, rectifies
  and multiplies by the second weights; the host aggregates again; the last step adds the second bias. Each boundary's
  contents are read from the one before, and the run ends with the result array at that composition.
-/
import proofs.«150596_j17154099380376_1_alg».proof.Proof.KHost
import proofs.«150596_j17154099380376_1_alg».proof.Proof.Region0
import proofs.«150596_j17154099380376_1_alg».proof.Proof.Region1
import proofs.«150596_j17154099380376_1_alg».proof.Proof.Region2
import proofs.«150596_j17154099380376_1_alg».proof.Proof.KernelRun
import proofs.«150596_j17154099380376_1_alg».proof.Proof.Spec
import proofs.«150596_j17154099380376_1_alg».proof.Proof.Out

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first dense layer its result array holds features · W1. -/
theorem W4_v32 (c : Dev nD) : W4 m ρ c (Proc.devRef .tc main_v32) = Gcn.mm 100000 128 16 (m ((c : Thread nD τ).loc main_arg0)) (m ((c : Thread nD τ).loc main_arg3)) :=
  (W4_arr m ρ c 2).trans ((Region0.final (V3 m ρ) c).trans (by
    show Gcn.mm 100000 128 16 (W3 m ρ c (Proc.devRef .tc main_arg0)) (W3 m ρ c (Proc.devRef .tc main_arg3)) = _
    rw [Host.W3_arg0 m ρ c, Host.W3_arg3 m ρ c]))

/-- At the second dense layer's entry the aggregated array holds the aggregation of features · W1. -/
theorem W5_v45 (c : Dev nD) : W5 m ρ c (Proc.devRef .tc main_v45)
    = Host.agg16 (F := Ideal) (Gcn.mm 100000 128 16 (m ((c : Thread nD τ).loc main_arg0)) (m ((c : Thread nD τ).loc main_arg3))) (m ((c : Thread nD τ).loc main_arg1)) (m ((c : Thread nD τ).loc main_arg2)) :=
  (Host.W5_v45 m ρ c).trans (by rw [W4_v32 m ρ c])

/-- After the second dense layer its result array holds the rectified biased aggregation times W2. -/
theorem W6_v47 (c : Dev nD) : W6 m ρ c (Proc.devRef .tc main_v47)
    = Gcn.mm 100000 16 8 (Gcn.reluAddRow 100000 16 zero
        (Host.agg16 (F := Ideal) (Gcn.mm 100000 128 16 (m ((c : Thread nD τ).loc main_arg0)) (m ((c : Thread nD τ).loc main_arg3))) (m ((c : Thread nD τ).loc main_arg1)) (m ((c : Thread nD τ).loc main_arg2))) (Host.row16 (F := Ideal) (m ((c : Thread nD τ).loc main_arg4)))) (m ((c : Thread nD τ).loc main_arg5)) :=
  (W6_arr m ρ c 3).trans ((Region1.final (V5 m ρ) c).trans (by
    show Gcn.mm 100000 16 8 (Gcn.reluAddRow 100000 16 zero (W5 m ρ c (Proc.devRef .tc main_v45)) (W5 m ρ c (Proc.devRef .tc main_v46)))
      (W5 m ρ c (Proc.devRef .tc main_arg5)) = _
    rw [W5_v45 m ρ c, Host.W5_v46 m ρ c, Host.W5_arg5 m ρ c]))

/-- At the last step's entry the aggregated array holds the second aggregation. -/
theorem W7_v60 (c : Dev nD) : W7 m ρ c (Proc.devRef .tc main_v60)
    = Host.agg8 (F := Ideal) (Gcn.mm 100000 16 8 (Gcn.reluAddRow 100000 16 zero
        (Host.agg16 (F := Ideal) (Gcn.mm 100000 128 16 (m ((c : Thread nD τ).loc main_arg0)) (m ((c : Thread nD τ).loc main_arg3))) (m ((c : Thread nD τ).loc main_arg1)) (m ((c : Thread nD τ).loc main_arg2))) (Host.row16 (F := Ideal) (m ((c : Thread nD τ).loc main_arg4)))) (m ((c : Thread nD τ).loc main_arg5))) (m ((c : Thread nD τ).loc main_arg1)) (m ((c : Thread nD τ).loc main_arg2)) :=
  (Host.W7_v60 m ρ c).trans (by rw [W6_v47 m ρ c])

/-- After the last step the result array holds the whole composition. -/
theorem W8_v62 (c : Dev nD) : W8 m ρ c (Proc.devRef .tc main_v62)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 2).trans ((Region2.final (V7 m ρ) c).trans (by
    show Gcn.addRow 100000 8 (W7 m ρ c (Proc.devRef .tc main_v60)) (W7 m ρ c (Proc.devRef .tc main_v61)) = _
    rw [W7_v60 m ρ c, Host.W7_v61 m ρ c]
    rfl))

/-- The run, read: the result array ends at the composition of the arguments, the arguments unchanged. -/
theorem run : θ_run defs (onTc (τ := τ) (main (F := Ideal))) ⟨m, fun _ => 0, ρ⟩ (fun r => ∀ c : Dev nD,
      r.2.mem ((c.tc : Thread nD τ).loc main_v62) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W8_v62 m ρ c), (h c).2⟩) (Run.run_result m ρ)

end Cert.KernelIdeal.Result

end
-- ==== Proof.RefValue.lean ====
/-
  The reference program's result is the same function of the arguments as the kernel program's. Stage by stage: its
  endpoint lists, weights, inverse root degrees and edge normalisation (computed twice, once per layer, by the same
  operations) are the graph functions; its two matrix products are the plain sums over the contracted coordinate; its
  two scatter-adds over gathered, scaled rows are the aggregations; its bias additions, written as broadcasts of the
  bias to the whole array, add the bias of each entry's column.
-/
import proofs.«150596_j17154099380376_1_alg».proof.Proof.Gen.ReferenceIdeal.Read
import proofs.«150596_j17154099380376_1_alg».proof.Proof.Out
import proofs.«150596_j17154099380376_1_alg».proof.Proof.LibPlainDot
import Idealize.ShloMosaic.Lib.Pipeline.Value
import Idealize.ShloMosaic.Lib.ValueIdx

set_option maxRecDepth 16384

noncomputable section

open scoped BigOperators

namespace Cert.ReferenceIdeal.RefValue

open Cert.ReferenceIdeal Cert.ReferenceIdeal.Read
open Idealize.ShloMosaic Idealize.ShloMosaic.ValueIdx

variable (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x16, .f32⟩ : BufTy).Contents (Elt Ideal)) (x4 : (⟨S16, .f32⟩ : BufTy).Contents (Elt Ideal)) (x5 : (⟨S16x8, .f32⟩ : BufTy).Contents (Elt Ideal)) (x6 : (⟨S8, .f32⟩ : BufTy).Contents (Elt Ideal))

/-! ## The graph side, first layer's copy -/

theorem srcs_eq : val_main_v6 (F := Ideal) x1 = Cert.KernelIdeal.Host.srcs x1 := rfl
theorem dsts_eq : val_main_v7 (F := Ideal) x1 = Cert.KernelIdeal.Host.dsts x1 := rfl
theorem wts_eq : val_main_v9 (F := Ideal) x2 = Cert.KernelIdeal.Host.wts (F := Ideal) x2 := rfl
theorem deg_eq : val_main_v12 (F := Ideal) x1 x2 = Cert.KernelIdeal.Host.deg (F := Ideal) x1 x2 := rfl
theorem dis_eq : val_main_v16 (F := Ideal) x1 x2 = Cert.KernelIdeal.Host.dis (F := Ideal) x1 x2 := by
  unfold val_main_v16 val_main_v14 val_main_v15 Cert.KernelIdeal.Host.dis
  rw [deg_eq]
  rfl
theorem wrap_srcs_eq : val_main_v21 (F := Ideal) x1 = Cert.KernelIdeal.Host.wrap (Cert.KernelIdeal.Host.srcs x1) := by
  unfold val_main_v21 val_main_v18 val_main_v20
  rw [srcs_eq]
  rfl
theorem wrap_dsts_eq : val_main_v29 (F := Ideal) x1 = Cert.KernelIdeal.Host.wrap (Cert.KernelIdeal.Host.dsts x1) := by
  unfold val_main_v29 val_main_v26 val_main_v28
  rw [dsts_eq]
  rfl
theorem norm_eq : val_main_v32 (F := Ideal) x1 x2 = Cert.KernelIdeal.Host.norm (F := Ideal) x1 x2 := by
  unfold val_main_v32 val_main_v24 val_main_v23 val_main_v31 val_main_v22 val_main_v30 Cert.KernelIdeal.Host.norm
  rw [dis_eq, wrap_srcs_eq, wrap_dsts_eq, wts_eq]
  rfl

/-! ## The graph side, second layer's copy (the same operations again) -/

theorem srcs_eq' : val_main_v52 (F := Ideal) x1 = Cert.KernelIdeal.Host.srcs x1 := rfl
theorem dsts_eq' : val_main_v53 (F := Ideal) x1 = Cert.KernelIdeal.Host.dsts x1 := rfl
theorem wts_eq' : val_main_v55 (F := Ideal) x2 = Cert.KernelIdeal.Host.wts (F := Ideal) x2 := rfl
theorem deg_eq' : val_main_v58 (F := Ideal) x1 x2 = Cert.KernelIdeal.Host.deg (F := Ideal) x1 x2 := rfl
theorem dis_eq' : val_main_v62 (F := Ideal) x1 x2 = Cert.KernelIdeal.Host.dis (F := Ideal) x1 x2 := by
  unfold val_main_v62 val_main_v60 val_main_v61 Cert.KernelIdeal.Host.dis
  rw [deg_eq']
  rfl
theorem wrap_srcs_eq' : val_main_v67 (F := Ideal) x1 = Cert.KernelIdeal.Host.wrap (Cert.KernelIdeal.Host.srcs x1) := by
  unfold val_main_v67 val_main_v64 val_main_v66
  rw [srcs_eq']
  rfl
theorem wrap_dsts_eq' : val_main_v75 (F := Ideal) x1 = Cert.KernelIdeal.Host.wrap (Cert.KernelIdeal.Host.dsts x1) := by
  unfold val_main_v75 val_main_v72 val_main_v74
  rw [dsts_eq']
  rfl
theorem norm_eq' : val_main_v78 (F := Ideal) x1 x2 = Cert.KernelIdeal.Host.norm (F := Ideal) x1 x2 := by
  unfold val_main_v78 val_main_v70 val_main_v69 val_main_v77 val_main_v68 val_main_v76 Cert.KernelIdeal.Host.norm
  rw [dis_eq', wrap_srcs_eq', wrap_dsts_eq', wts_eq']
  rfl

/-- The gather indices of the two aggregations: the wrapped sources. -/
theorem gidx1_eq : val_main_v37 (F := Ideal) x1 = Cert.KernelIdeal.Host.wrap (Cert.KernelIdeal.Host.srcs x1) := by
  unfold val_main_v37 val_main_v34 val_main_v36
  rw [srcs_eq]
  rfl
theorem gidx2_eq : val_main_v83 (F := Ideal) x1 = Cert.KernelIdeal.Host.wrap (Cert.KernelIdeal.Host.srcs x1) := by
  unfold val_main_v83 val_main_v80 val_main_v82
  rw [srcs_eq']
  rfl

/-! ## The dense side -/

/-- A bias read through its one-row form is the bias at the column. -/
theorem row16_apply (b : FVec Ideal S16 .f32) (q : Fin 16) :
    Cert.KernelIdeal.Host.row16 (F := Ideal) b (ix2 (n0 := 1) (n1 := 16) 0 q) = b (ix1 q) := by
  unfold Cert.KernelIdeal.Host.row16
  refine (shapeCast_addUnit_apply ![16] b _ _).trans (congrArg b (funext fun a => ?_))
  match a with
  | ⟨0, _⟩ => rfl
theorem row8_apply (b : FVec Ideal S8 .f32) (q : Fin 8) :
    Cert.KernelIdeal.Host.row8 (F := Ideal) b (ix2 (n0 := 1) (n1 := 8) 0 q) = b (ix1 q) := by
  unfold Cert.KernelIdeal.Host.row8
  refine (shapeCast_addUnit_apply ![8] b _ _).trans (congrArg b (funext fun a => ?_))
  match a with
  | ⟨0, _⟩ => rfl

/-- The first matrix product. -/
theorem mm1_eq : val_main_v4 (F := Ideal) x0 x3 = Gcn.mm 100000 128 16 x0 x3 := by
  funext i
  rw [val_main_v4_apply]
  unfold Gcn.mm
  refine Finset.sum_congr rfl fun k _ => ?_
  have el : lidx_main_v4 i k = ix2 (n0 := 100000) (n1 := 128) (Gcn.row i) k := funext fun a => Fin.ext (by
    match a with
    | ⟨0, _⟩ => rfl
    | ⟨1, _⟩ => rfl)
  have er : ridx_main_v4 i k = ix2 (n0 := 128) (n1 := 16) k (Gcn.col i) := funext fun a => Fin.ext (by
    match a with
    | ⟨0, _⟩ => rfl
    | ⟨1, _⟩ => rfl)
  rw [el, er]

/-- The first aggregation. -/
theorem agg16_eq : val_main_v45 (F := Ideal) x0 x1 x2 x3 = Cert.KernelIdeal.Host.agg16 (F := Ideal) (Gcn.mm 100000 128 16 x0 x3) x1 x2 := by
  unfold val_main_v45 val_main_v42 val_main_v39 val_main_v38 val_main_v41 val_main_v40 val_main_v44 Cert.KernelIdeal.Host.agg16
  rw [mm1_eq, gidx1_eq, norm_eq, dsts_eq]
  rfl

/-- The bias addition and the rectifier. -/
theorem act_eq : val_main_v49 (F := Ideal) x0 x1 x2 x3 x4
    = Gcn.reluAddRow 100000 16 Cert.KernelIdeal.Result.zero (val_main_v45 (F := Ideal) x0 x1 x2 x3) (Cert.KernelIdeal.Host.row16 (F := Ideal) x4) := by
  funext i
  rw [val_main_v49_apply, val_main_v48_apply, val_main_v47_apply, val_main_v46_apply, val_main_call1_v0_apply, val_main_call1_cst_apply]
  unfold Gcn.reluAddRow
  rw [row16_apply]
  have e : idx_main_v46 (idx_main_v47 i) = ix1 (Gcn.col i) := funext fun a => Fin.ext (by
    match a with
    | ⟨0, _⟩ => rfl)
  rw [e]
  rfl

/-- The second matrix product. -/
theorem mm2_eq : val_main_v50 (F := Ideal) x0 x1 x2 x3 x4 x5 = Gcn.mm 100000 16 8 (val_main_v49 (F := Ideal) x0 x1 x2 x3 x4) x5 := by
  funext i
  rw [val_main_v50_apply]
  unfold Gcn.mm
  refine Finset.sum_congr rfl fun k _ => ?_
  have el : lidx_main_v50 i k = ix2 (n0 := 100000) (n1 := 16) (Gcn.row i) k := funext fun a => Fin.ext (by
    match a with
    | ⟨0, _⟩ => rfl
    | ⟨1, _⟩ => rfl)
  have er : ridx_main_v50 i k = ix2 (n0 := 16) (n1 := 8) k (Gcn.col i) := funext fun a => Fin.ext (by
    match a with
    | ⟨0, _⟩ => rfl
    | ⟨1, _⟩ => rfl)
  rw [el, er]

/-- The second aggregation. -/
theorem agg8_eq : val_main_v91 (F := Ideal) x0 x1 x2 x3 x4 x5 = Cert.KernelIdeal.Host.agg8 (F := Ideal) (val_main_v50 (F := Ideal) x0 x1 x2 x3 x4 x5) x1 x2 := by
  unfold val_main_v91 val_main_v88 val_main_v85 val_main_v84 val_main_v87 val_main_v86 val_main_v90 Cert.KernelIdeal.Host.agg8
  rw [gidx2_eq, norm_eq', dsts_eq']
  rfl

/-- The last bias addition. -/
theorem bias2_eq : val_main_v94 (F := Ideal) x0 x1 x2 x3 x4 x5 x6
    = Gcn.addRow 100000 8 (val_main_v91 (F := Ideal) x0 x1 x2 x3 x4 x5) (Cert.KernelIdeal.Host.row8 (F := Ideal) x6) := by
  funext i
  rw [val_main_v94_apply, val_main_v93_apply, val_main_v92_apply]
  unfold Gcn.addRow
  rw [row8_apply]
  have e : idx_main_v92 (idx_main_v93 i) = ix1 (Gcn.col i) := funext fun a => Fin.ext (by
    match a with
    | ⟨0, _⟩ => rfl)
  rw [e]
  rfl

/-- The reference's result is the kernel program's function of the arguments. -/
theorem result_eq : val_main_v94 (F := Ideal) x0 x1 x2 x3 x4 x5 x6 = Cert.KernelIdeal.Result.out x0 x1 x2 x3 x4 x5 x6 := by
  rw [bias2_eq, agg8_eq, mm2_eq, act_eq, agg16_eq]
  rfl

end Cert.ReferenceIdeal.RefValue

end
-- ==== Proof.lean ====
/-
  A two-layer graph convolution with edge weights, on 100000 nodes and 1600000 edges: a self loop of weight one is added
  per node, each edge is normalised by the inverse square roots of its endpoints' weighted in-degrees, and a layer
  multiplies the node features by a weight array, aggregates the rows along the edges (gather the source rows, scale
  each by its edge's normalisation, add into the destination rows) and adds a bias; a rectifier sits between the layers.

  The kernel program computes the two matrix products and the two bias steps in three row-blocked dense layers (twenty
  blocks of 5000 rows each), with the normalisation and the two aggregations as host operations around them, the
  normalisation computed once. The reference computes everything on the host, the normalisation once per layer.
  Over the extended reals both end with the same array: each dense layer's blocks tile its result array, whose entry
  (r, q) is the sum over the contracted coordinate of the products (rounding an operand to a narrower format is the
  identity there, and the order of a sum does not matter), and every host operation of the one program is an operation
  of the other applied to equal operands. No algebraic law beyond that is used, and the precondition is never opened.
-/
import proofs.«150596_j17154099380376_1_alg».proof.Defs
import proofs.«150596_j17154099380376_1_alg».proof.Proof.Gen.Kernel
import proofs.«150596_j17154099380376_1_alg».proof.Proof.Gen.Kernel.Skeleton
import proofs.«150596_j17154099380376_1_alg».proof.Proof.Gen.Kernel.Launch
import proofs.«150596_j17154099380376_1_alg».proof.Proof.Gen.Kernel.Points
import proofs.«150596_j17154099380376_1_alg».proof.Proof.Gen.Kernel.Frame
import proofs.«150596_j17154099380376_1_alg».proof.Proof.Gen.KernelIdeal
import proofs.«150596_j17154099380376_1_alg».proof.Proof.Gen.KernelIdeal.Skeleton
import proofs.«150596_j17154099380376_1_alg».proof.Proof.Gen.KernelIdeal.Launch
import proofs.«150596_j17154099380376_1_alg».proof.Proof.Gen.KernelIdeal.Points
import proofs.«150596_j17154099380376_1_alg».proof.Proof.Gen.KernelIdeal.Frame
import proofs.«150596_j17154099380376_1_alg».proof.Proof.Gen.ReferenceIdeal
import proofs.«150596_j17154099380376_1_alg».proof.Proof.Gen.ReferenceIdeal.Run
import proofs.«150596_j17154099380376_1_alg».proof.Proof.Gen.ReferenceIdeal.Read
import proofs.«150596_j17154099380376_1_alg».proof.Proof.Gen.Pre_finite_inputs
import proofs.«150596_j17154099380376_1_alg».proof.Proof.KValue
import proofs.«150596_j17154099380376_1_alg».proof.Proof.RefValue
import Idealize.ShloMosaic.Adequacy
import Idealize.ShloMosaic.Init

noncomputable section

namespace Cert.Proof

open Idealize.ShloMosaic Idealize.SL.Sem

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same array: the kernel program's run ends at the
    composition of the graph functions and the dense layers, and the reference's result is that same composition. -/
theorem algebraic : Cert.algebraic_KernelIdeal_ReferenceIdeal := by
  intro m ρ m' ρ' _ hagree
  refine ⟨fun c => Cert.KernelIdeal.Result.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq, Cert.ReferenceIdeal.RefValue.result_eq]
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
